-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S64x128 : Shape := ⟨2, ![64, 128]⟩
abbrev S64 : Shape := ⟨1, ![64]⟩
abbrev S640000 : Shape := ⟨1, ![640000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64x128 .f32) (main_arg5 : FVec F S64x128 .f32) (main_arg6 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S64x128 .f32 := Host.absf main_arg4
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64x128 .f32 := Host.absf main_arg5
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x128 .f32) (main_arg1 : FVec F S128x128 .f32) (main_arg2 : FVec F S128x128 .f32) (main_arg3 : FVec F S128 .f32) (main_arg4 : FVec F S64x128 .f32) (main_arg5 : FVec F S64x128 .f32) (main_arg6 : FVec F S64 .f32) (main_arg7 : IVec S640000 32) (main_arg8 : IVec S640000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_v13 main_v16
-- ==== Kernel.lean ====
abbrev S50000x128 : Shape := ⟨2, ![50000, 128]⟩
abbrev S128x128 : Shape := ⟨2, ![128, 128]⟩
abbrev S128 : Shape := ⟨1, ![128]⟩
abbrev S64x128 : Shape := ⟨2, ![64, 128]⟩
abbrev S64 : Shape := ⟨1, ![64]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S50000 : Shape := ⟨1, ![50000]⟩
abbrev S50000x1 : Shape := ⟨2, ![50000, 1]⟩
abbrev S1x128 : Shape := ⟨2, ![1, 128]⟩
abbrev S5000x128 : Shape := ⟨2, ![5000, 128]⟩
abbrev S128x64 : Shape := ⟨2, ![128, 64]⟩
abbrev S1x64 : Shape := ⟨2, ![1, 64]⟩
abbrev S50000x64 : Shape := ⟨2, ![50000, 64]⟩
abbrev S5000x64 : Shape := ⟨2, ![5000, 64]⟩

abbrev nBuf : Space → Nat
  | .hbm => 67
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128x128, .f32⟩
  | .hbm, ⟨3, _⟩ => ⟨S128, .f32⟩
  | .hbm, ⟨4, _⟩ => ⟨S64x128, .f32⟩
  | .hbm, ⟨5, _⟩ => ⟨S64x128, .f32⟩
  | .hbm, ⟨6, _⟩ => ⟨S64, .f32⟩
  | .hbm, ⟨7, _⟩ => ⟨S640000, .i32⟩
  | .hbm, ⟨8, _⟩ => ⟨S640000, .i32⟩
  | .hbm, ⟨9, _⟩ => ⟨S_, .i32⟩
  | .hbm, ⟨10, _⟩ => ⟨S640000, .i32⟩
  | .hbm, ⟨11, _⟩ => ⟨S640000, .i1⟩
  | .hbm, ⟨12, _⟩ => ⟨S_, .i32⟩
  | .hbm, ⟨13, _⟩ => ⟨S640000, .i32⟩
  | .hbm, ⟨14, _⟩ => ⟨S640000, .i32⟩
  | .hbm, ⟨15, _⟩ => ⟨S640000, .i32⟩
  | .hbm, ⟨16, _⟩ => ⟨S640000x1, .i32⟩
  | .hbm, ⟨17, _⟩ => ⟨S640000x128, .f32⟩
  | .hbm, ⟨18, _⟩ => ⟨S_, .f32⟩
  | .hbm, ⟨19, _⟩ => ⟨S50000x128, .f32⟩
  | .hbm, ⟨20, _⟩ => ⟨S640000x1, .i32⟩
  | .hbm, ⟨21, _⟩ => ⟨S50000x128, .f32⟩
  | .hbm, ⟨22, _⟩ => ⟨S_, .f32⟩
  | .hbm, ⟨23, _⟩ => ⟨S640000, .f32⟩
  | .hbm, ⟨24, _⟩ => ⟨S_, .f32⟩
  | .hbm, ⟨25, _⟩ => ⟨S50000, .f32⟩
  | .hbm, ⟨26, _⟩ => ⟨S640000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x128, .f32⟩
  | .hbm, ⟨33, _⟩ => ⟨S50000x128, .f32⟩
  | .hbm, ⟨34, _⟩ => ⟨S128x128, .f32⟩
  | .hbm, ⟨35, _⟩ => ⟨S128x128, .f32⟩
  | .hbm, ⟨36, _⟩ => ⟨S1x128, .f32⟩
  | .hbm, ⟨37, _⟩ => ⟨S50000x128, .f32⟩
  | .hbm, ⟨38, _⟩ => ⟨S_, .i32⟩
  | .hbm, ⟨39, _⟩ => ⟨S640000, .i32⟩
  | .hbm, ⟨40, _⟩ => ⟨S640000, .i1⟩
  | .hbm, ⟨41, _⟩ => ⟨S_, .i32⟩
  | .hbm, ⟨42, _⟩ => ⟨S640000, .i32⟩
  | .hbm, ⟨43, _⟩ => ⟨S640000, .i32⟩
  | .hbm, ⟨44, _⟩ => ⟨S640000, .i32⟩
  | .hbm, ⟨45, _⟩ => ⟨S640000x1, .i32⟩
  | .hbm, ⟨46, _⟩ => ⟨S640000x128, .f32⟩
  | .hbm, ⟨47, _⟩ => ⟨S_, .f32⟩
  | .hbm, ⟨48, _⟩ => ⟨S50000x128, .f32⟩
  | .hbm, ⟨49, _⟩ => ⟨S640000x1, .i32⟩
  | .hbm, ⟨50, _⟩ => ⟨S50000x128, .f32⟩
  | .hbm, ⟨51, _⟩ => ⟨S_, .f32⟩
  | .hbm, ⟨52, _⟩ => ⟨S640000, .f32⟩
  | .hbm, ⟨53, _⟩ => ⟨S_, .f32⟩
  | .hbm, ⟨54, _⟩ => ⟨S50000, .f32⟩
  | .hbm, ⟨55, _⟩ => ⟨S640000x1, .i32⟩
  | .hbm, ⟨56, _⟩ => ⟨S50000, .f32⟩
  | .hbm, ⟨57, _⟩ => ⟨S_, .f32⟩
  | .hbm, ⟨58, _⟩ => ⟨S50000, .f32⟩
  | .hbm, ⟨59, _⟩ => ⟨S50000, .f32⟩
  | .hbm, ⟨60, _⟩ => ⟨S50000x1, .f32⟩
  | .hbm, ⟨61, _⟩ => ⟨S50000x128, .f32⟩
  | .hbm, ⟨62, _⟩ => ⟨S50000x128, .f32⟩
  | .hbm, ⟨63, _⟩ => ⟨S128x64, .f32⟩
  | .hbm, ⟨64, _⟩ => ⟨S128x64, .f32⟩
  | .hbm, ⟨65, _⟩ => ⟨S1x64, .f32⟩
  | .hbm, ⟨66, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x64, .f32⟩
  | .local _ .vmem, ⟨14, _⟩ => ⟨S128x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_7 : Ref sig .tc := ⟨.hbm, 51, rfl⟩
abbrev main_v33 : Ref sig .tc := ⟨.hbm, 52, rfl⟩
abbrev main_cst_8 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_9 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  transposes_S64x128_S128x64_1_0 : S64x128.Transposes [1, 0] S128x64
  shapeCasts_S64_S1x64 : S64.ShapeCasts S1x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  scatter_S50000_S640000x1_S640000_n_0_0_1_wf : ScatterDims.WF S50000 S640000x1 S640000 [] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v22) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S64x128 : Shape := ⟨2, ![64, 128]⟩
abbrev S64 : Shape := ⟨1, ![64]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S50000 : Shape := ⟨1, ![50000]⟩
abbrev S50000x1 : Shape := ⟨2, ![50000, 1]⟩
abbrev S1x128 : Shape := ⟨2, ![1, 128]⟩
abbrev S128x64 : Shape := ⟨2, ![128, 64]⟩
abbrev S50000x64 : Shape := ⟨2, ![50000, 64]⟩
abbrev S1x64 : Shape := ⟨2, ![1, 64]⟩

abbrev nBuf : Space → Nat
  | .hbm => 78
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128x128, .f32⟩
  | .hbm, ⟨3, _⟩ => ⟨S128, .f32⟩
  | .hbm, ⟨4, _⟩ => ⟨S64x128, .f32⟩
  | .hbm, ⟨5, _⟩ => ⟨S64x128, .f32⟩
  | .hbm, ⟨6, _⟩ => ⟨S64, .f32⟩
  | .hbm, ⟨7, _⟩ => ⟨S640000, .i32⟩
  | .hbm, ⟨8, _⟩ => ⟨S640000, .i32⟩
  | .hbm, ⟨9, _⟩ => ⟨S_, .i32⟩
  | .hbm, ⟨10, _⟩ => ⟨S640000, .i32⟩
  | .hbm, ⟨11, _⟩ => ⟨S640000, .i1⟩
  | .hbm, ⟨12, _⟩ => ⟨S_, .i32⟩
  | .hbm, ⟨13, _⟩ => ⟨S640000, .i32⟩
  | .hbm, ⟨14, _⟩ => ⟨S640000, .i32⟩
  | .hbm, ⟨15, _⟩ => ⟨S640000, .i32⟩
  | .hbm, ⟨16, _⟩ => ⟨S640000x1, .i32⟩
  | .hbm, ⟨17, _⟩ => ⟨S640000x128, .f32⟩
  | .hbm, ⟨18, _⟩ => ⟨S_, .f32⟩
  | .hbm, ⟨19, _⟩ => ⟨S50000x128, .f32⟩
  | .hbm, ⟨20, _⟩ => ⟨S640000x1, .i32⟩
  | .hbm, ⟨21, _⟩ => ⟨S50000x128, .f32⟩
  | .hbm, ⟨22, _⟩ => ⟨S_, .f32⟩
  | .hbm, ⟨23, _⟩ => ⟨S640000, .f32⟩
  | .hbm, ⟨24, _⟩ => ⟨S_, .f32⟩
  | .hbm, ⟨25, _⟩ => ⟨S50000, .f32⟩
  | .hbm, ⟨26, _⟩ => ⟨S640000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x128, .f32⟩
  | .hbm, ⟨33, _⟩ => ⟨S50000x128, .f32⟩
  | .hbm, ⟨34, _⟩ => ⟨S128x128, .f32⟩
  | .hbm, ⟨35, _⟩ => ⟨S50000x128, .f32⟩
  | .hbm, ⟨36, _⟩ => ⟨S128x128, .f32⟩
  | .hbm, ⟨37, _⟩ => ⟨S50000x128, .f32⟩
  | .hbm, ⟨38, _⟩ => ⟨S50000x128, .f32⟩
  | .hbm, ⟨39, _⟩ => ⟨S1x128, .f32⟩
  | .hbm, ⟨40, _⟩ => ⟨S50000x128, .f32⟩
  | .hbm, ⟨41, _⟩ => ⟨S50000x128, .f32⟩
  | .hbm, ⟨42, _⟩ => ⟨S_, .f32⟩
  | .hbm, ⟨43, _⟩ => ⟨S50000x128, .f32⟩
  | .hbm, ⟨44, _⟩ => ⟨S50000x128, .f32⟩
  | .hbm, ⟨45, _⟩ => ⟨S_, .i32⟩
  | .hbm, ⟨46, _⟩ => ⟨S640000, .i32⟩
  | .hbm, ⟨47, _⟩ => ⟨S640000, .i1⟩
  | .hbm, ⟨48, _⟩ => ⟨S_, .i32⟩
  | .hbm, ⟨49, _⟩ => ⟨S640000, .i32⟩
  | .hbm, ⟨50, _⟩ => ⟨S640000, .i32⟩
  | .hbm, ⟨51, _⟩ => ⟨S640000, .i32⟩
  | .hbm, ⟨52, _⟩ => ⟨S640000x1, .i32⟩
  | .hbm, ⟨53, _⟩ => ⟨S640000x128, .f32⟩
  | .hbm, ⟨54, _⟩ => ⟨S_, .f32⟩
  | .hbm, ⟨55, _⟩ => ⟨S50000x128, .f32⟩
  | .hbm, ⟨56, _⟩ => ⟨S640000x1, .i32⟩
  | .hbm, ⟨57, _⟩ => ⟨S50000x128, .f32⟩
  | .hbm, ⟨58, _⟩ => ⟨S_, .f32⟩
  | .hbm, ⟨59, _⟩ => ⟨S640000, .f32⟩
  | .hbm, ⟨60, _⟩ => ⟨S_, .f32⟩
  | .hbm, ⟨61, _⟩ => ⟨S50000, .f32⟩
  | .hbm, ⟨62, _⟩ => ⟨S640000x1, .i32⟩
  | .hbm, ⟨63, _⟩ => ⟨S50000, .f32⟩
  | .hbm, ⟨64, _⟩ => ⟨S_, .f32⟩
  | .hbm, ⟨65, _⟩ => ⟨S50000, .f32⟩
  | .hbm, ⟨66, _⟩ => ⟨S50000, .f32⟩
  | .hbm, ⟨67, _⟩ => ⟨S50000x1, .f32⟩
  | .hbm, ⟨68, _⟩ => ⟨S50000x128, .f32⟩
  | .hbm, ⟨69, _⟩ => ⟨S50000x128, .f32⟩
  | .hbm, ⟨70, _⟩ => ⟨S128x64, .f32⟩
  | .hbm, ⟨71, _⟩ => ⟨S50000x64, .f32⟩
  | .hbm, ⟨72, _⟩ => ⟨S128x64, .f32⟩
  | .hbm, ⟨73, _⟩ => ⟨S50000x64, .f32⟩
  | .hbm, ⟨74, _⟩ => ⟨S50000x64, .f32⟩
  | .hbm, ⟨75, _⟩ => ⟨S1x64, .f32⟩
  | .hbm, ⟨76, _⟩ => ⟨S50000x64, .f32⟩
  | .hbm, ⟨77, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_call0_cst : Ref sig .tc := ⟨.hbm, 42, rfl⟩
abbrev main_call0_v0 : Ref sig .tc := ⟨.hbm, 43, rfl⟩
abbrev main_v27 : Ref sig .tc := ⟨.hbm, 44, rfl⟩
abbrev main_c_4 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_6 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_v38 : Ref sig .tc := ⟨.hbm, 59, rfl⟩
abbrev main_cst_8 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_9 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S64x128_S128x64_1_0 : S64x128.Transposes [1, 0] S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  scatter_S50000_S640000x1_S640000_n_0_0_1_wf : ScatterDims.WF S50000 S640000x1 S640000 [] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.LibMatmulPlain.lean ====
/-
  Two general facts about rank-2 blocks at the ideal values, stated for any extents.

  * A kernel's matrix product of an m×k block by a k×n block into the zero accumulator, read at entry (a, b), is the
    plain sum over the contracted coordinate c of A(a, c) · B(c, b), whatever contraction precision the operation
    carries: at the ideal values the product into zero and the host's `dot_general` are the same sum over the
    contraction index, and the library already reads the host's plain product as that sum.
  * A one-row block [1, n] broadcast down m rows, read at (a, b), is the row's entry at column b.
-/
import Idealize.ShloMosaic.PureOps.Ideal.Laws
import Idealize.ShloMosaic.Lib.ValueIdx
import Idealize.ShloMosaic.Lib.StackMember
import Idealize.ShloMosaic.Lib.Pipeline.Value

noncomputable section

open scoped BigOperators

namespace Cert.LibMatmulPlain

open Idealize.ShloMosaic Idealize.ShloMosaic.ValueIdx

/-- The product of an m×k block by a k×n block into the zero accumulator, at the ideal values, read at (a, b):
    Σ_c A(a, c) · B(c, b). The precision argument plays no part: the ideal product is exact. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec _ A B (ix2 a b)).symm.trans
      (StackMember.dotGeneral_plain_apply prec A B a b))

/-- A one-row block broadcast down the rows, read at (a, b), is the row at column b. -/
theorem rowBroadcast_apply {α : Type} {m n : Nat} (x : (⟨2, ![1, n]⟩ : Shape).Idx → α)
    (h : (⟨2, ![1, n]⟩ : Shape).Broadcasts ⟨2, ![m, n]⟩) (a : Fin m) (b : Fin n) :
    broadcastTo ⟨2, ![m, n]⟩ x h (ix2 a b) = x (ix2 0 b) := by
  refine broadcastTo_apply x h (ix2 a b) (ix2 0 b) fun ax => ?_
  match ax with
  | ⟨0, _⟩ => rfl
  | ⟨1, _⟩ =>
    show b.val = if n = 1 then 0 else b.val
    split
    · have := b.isLt; omega
    · rfl

end Cert.LibMatmulPlain

end
-- ==== Proof.SageLayer.lean ====
/-
  One layer of a mean-aggregating graph network, at the ideal values (every float an extended real, every operation
  exact, every change of float format the identity).

  A layer takes the node features h (one row per node), the neighbour means g (same shape), two weight matrices A and B
  given already as [inputs, outputs], and a bias row, and returns  h·A + g·B + bias  — entry (a, b) is
      (Σ_c h(a,c)·A(c,b)  +  Σ_c g(a,c)·B(c,b))  +  bias(b),
  the two sums each taken whole before they are added, the bias added last. The first layer clamps the result below at
  zero. Both programs compute exactly this expression, so no law of the extended reals beyond the shape of the expression
  is needed.
-/
import Idealize.ShloMosaic.PureOps.Ideal
import Idealize.ShloMosaic.Lib.ValueIdx

noncomputable section

open scoped BigOperators

namespace Cert.Sage

open Idealize.ShloMosaic Idealize.ShloMosaic.ValueIdx

/-- Entry (a, b) of h·A + g·B + bias: the two contractions over the shared inner coordinate, added, then the bias entry
    of column b (the bias is a one-row array). -/
def denseAt {m k n : Nat} (h g : FVec Ideal ⟨2, ![m, k]⟩ .f32) (A B : FVec Ideal ⟨2, ![k, n]⟩ .f32)
    (bias : FVec Ideal ⟨2, ![1, n]⟩ .f32) (a : Fin m) (b : Fin n) : EReal :=
  ((∑ c : Fin k, h (ix2 a c) * A (ix2 c b)) + (∑ c : Fin k, g (ix2 a c) * B (ix2 c b))) + bias (ix2 0 b)

/-- The layer without the clamp, as a whole array. -/
def dense {m k n : Nat} (h g : FVec Ideal ⟨2, ![m, k]⟩ .f32) (A B : FVec Ideal ⟨2, ![k, n]⟩ .f32)
    (bias : FVec Ideal ⟨2, ![1, n]⟩ .f32) : FVec Ideal ⟨2, ![m, n]⟩ .f32 :=
  fun i => denseAt h g A B bias (i 0) (i 1)

/-- The layer clamped below at the float zero, as a whole array. -/
def reluDense {m k n : Nat} (h g : FVec Ideal ⟨2, ![m, k]⟩ .f32) (A B : FVec Ideal ⟨2, ![k, n]⟩ .f32)
    (bias : FVec Ideal ⟨2, ![1, n]⟩ .f32) : FVec Ideal ⟨2, ![m, n]⟩ .f32 :=
  fun i => max (denseAt h g A B bias (i 0) (i 1)) (Ideal.ofBits .f32 0x00000000#32)

theorem dense_apply {m k n : Nat} (h g : FVec Ideal ⟨2, ![m, k]⟩ .f32) (A B : FVec Ideal ⟨2, ![k, n]⟩ .f32)
    (bias : FVec Ideal ⟨2, ![1, n]⟩ .f32) (a : Fin m) (b : Fin n) :
    dense h g A B bias (ix2 a b) = denseAt h g A B bias a b := rfl

theorem reluDense_apply {m k n : Nat} (h g : FVec Ideal ⟨2, ![m, k]⟩ .f32) (A B : FVec Ideal ⟨2, ![k, n]⟩ .f32)
    (bias : FVec Ideal ⟨2, ![1, n]⟩ .f32) (a : Fin m) (b : Fin n) :
    reluDense h g A B bias (ix2 a b) = max (denseAt h g A B bias a b) (Ideal.ofBits .f32 0x00000000#32) := rfl

end Cert.Sage

end
-- ==== Proof.Layer1Value.lean ====
/-
  The first pallas_call's output array, at the ideal values, as one function of the arrays the call finds.

  The call walks the 50000 node rows in ten blocks of 5000. At a block it loads 5000 rows of the input features and of
  their neighbour means, the two whole 128×128 weight matrices and the one-row bias, multiplies, adds, clamps below at
  zero, and stores 5000 rows of the hidden features. Row r of the output lies in block r / 5000 and depends on row r of
  the two row-blocked inputs only, so the ten write-backs together are the clamped layer  max(h·A + g·B + bias, 0)  of
  the whole arrays.
-/
import proofs.«120251_j60103772340328_1_alg».proof.Proof.Gen.KernelIdeal.Frame
import proofs.«120251_j60103772340328_1_alg».proof.Proof.LibMatmulPlain
import proofs.«120251_j60103772340328_1_alg».proof.Proof.SageLayer
import Idealize.ShloMosaic.Lib.Pipeline.Value
import Idealize.ShloMosaic.Lib.ValueIdx

set_option maxRecDepth 16384

noncomputable section

open scoped BigOperators

namespace Cert.KernelIdeal.Layer1

open Cert.KernelIdeal Cert.KernelIdeal.Gen
open Idealize.ShloMosaic Idealize.ShloMosaic.TcCoe Idealize.ShloMosaic.ValueIdx Idealize.SL.Sem
open Idealize.ShloMosaic.Pipeline (Dat)

-- the arrays as the call finds them, on each core
variable (V : (c : Dev nD) → (b : Ref sig .tc) → Buf (Elt Ideal) ((c : Thread nD τ).loc b))

/-- The node features the call reads (the program's first argument). -/
abbrev feat (c : Dev nD) : Vec Ideal S50000x128 .f32 := V c main_arg0
/-- The neighbour means the call reads. -/
abbrev nbr (c : Dev nD) : Vec Ideal S50000x128 .f32 := V c main_v18
/-- The two weight matrices, as [inputs, outputs]. -/
abbrev wSelf (c : Dev nD) : Vec Ideal S128x128 .f32 := V c main_v19
abbrev wNbr (c : Dev nD) : Vec Ideal S128x128 .f32 := V c main_v20
/-- The one-row bias. -/
abbrev biasRow (c : Dev nD) : Vec Ideal S1x128 .f32 := V c main_v21

/-- What the output array ends holding: the clamped layer of the arrays the call finds. -/
def layer (c : Dev nD) : Vec Ideal S50000x128 .f32 :=
  Sage.reluDense (feat V c) (nbr V c) (wSelf V c) (wNbr V c) (biasRow V c)

theorem zeroOff : (![0, 0] : Fin 2 → Nat) = fun _ => 0 := funext fun a => by fin_cases a <;> rfl

/-- The body's stored value at entry (a, b) of a block: the two products into zero accumulators are the two sums over
    the 128 inner coordinates (the narrowing to bf16 is the identity here), their sum, the bias row's entry b, and the
    maximum with the float zero. -/
theorem pay_apply (x0 x2 : Vec Ideal S5000x128 .f32) (x5 x8 : Vec Ideal S128x128 .f32) (x14 : Vec Ideal S1x128 .f32)
    (a : Fin 5000) (b : Fin 128) :
    k0_pay1 x0 x2 x5 x8 x14 (ix2 a b) = max (Sage.denseAt x0 x2 x5 x8 x14 a b) (Ideal.ofBits .f32 0x00000000#32) := by
  unfold k0_pay1 Sage.denseAt
  simp only [shapeCast_self]
  refine congrArg₂ max (congrArg₂ (· + ·) (congrArg₂ (· + ·) ?_ ?_) ?_) rfl
  · exact Cert.LibMatmulPlain.matmul_plain_zero_apply none _ _ a b
  · exact Cert.LibMatmulPlain.matmul_plain_zero_apply none _ _ a b
  · exact Cert.LibMatmulPlain.rowBroadcast_apply x14 _ a b

/-- The stored value at any index of a block, by its two coordinates. -/
theorem pay_idx (x0 x2 : Vec Ideal S5000x128 .f32) (x5 x8 : Vec Ideal S128x128 .f32) (x14 : Vec Ideal S1x128 .f32)
    (y : S5000x128.Idx) :
    k0_pay1 x0 x2 x5 x8 x14 y = max (Sage.denseAt x0 x2 x5 x8 x14 (y 0) (y 1)) (Ideal.ofBits .f32 0x00000000#32) := by
  obtain ⟨a, b, rfl⟩ : ∃ (a : Fin 5000) (b : Fin 128), y = ix2 a b := ⟨y 0, y 1, eq_ix2 y⟩
  exact pay_apply x0 x2 x5 x8 x14 a b

/-- The printed index maps over the ten grid points: the two row-blocked inputs and the output sit at block (t, 0), the
    weights and the bias at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- WHAT POINT t WRITES BACK is block t of the clamped layer of the arrays the call finds: the block's row p is array
    row 5000·t + p, read from the same row of the two row-blocked inputs; the weights and the bias are read whole. -/
theorem flushed_eq (c : Dev nD) (t : Fin cfg0.N) :
    (dat0 V c).flushed 5 t = ((cfg0.win 5).blk t).view.read (Elt Ideal) (layer V c) := by
  show (cfg0.win 5).cut (grid0.coords t) ((dat0 V c).after 5 t) = _
  rw [after0_5]
  unfold out0_5
  rw [View.canon_unit_zero zeroOff]
  simp only [View.ld_unit_zero (S := S5000x128) zeroOff, View.ld_unit_zero (S := S128x128) zeroOff, View.ld_unit_zero (S := S1x128) zeroOff]
  obtain ⟨e00, e01, e10, e11, e20, e21, e30, e31, e40, e41, e50, e51⟩ := idx_facts t
  funext j
  have hj0 : (j 0).val < 5000 := (j 0).isLt
  have hj1 : (j 1).val < 128 := (j 1).isLt
  refine (pay_idx (iblk0 V c 0 t) (iblk0 V c 1 t) (iblk0 V c 2 t) (iblk0 V c 3 t) (iblk0 V c 4 t) j).trans ?_
  show max (Sage.denseAt (iblk0 V c 0 t) (iblk0 V c 1 t) (iblk0 V c 2 t) (iblk0 V c 3 t) (iblk0 V c 4 t) (j 0) (j 1)) (Ideal.ofBits .f32 0x00000000#32)
    = max (Sage.denseAt (feat V c) (nbr V c) (wSelf V c) (wNbr V c) (biasRow V c)
        ((((cfg0.win 5).blk t).view.emb j) 0) ((((cfg0.win 5).blk t).view.emb j) 1)) (Ideal.ofBits .f32 0x00000000#32)
  unfold Sage.denseAt
  refine congrArg₂ max (congrArg₂ (· + ·) (congrArg₂ (· + ·) (Finset.sum_congr rfl fun k _ => congrArg₂ (· * ·) ?_ ?_)
    (Finset.sum_congr rfl fun k _ => congrArg₂ (· * ·) ?_ ?_)) ?_) rfl
  · show V c main_arg0 (((cfg0.win 0).blk t).view.emb (ix2 (j 0) k)) = V c main_arg0 (ix2 ((((cfg0.win 5).blk t).view.emb j) 0) k)
    refine congrArg (V c main_arg0) (funext fun a => Fin.ext ?_)
    match a with
    | ⟨0, _⟩ => show win0_0.index t (0 : Fin 2) * 5000 + 1 * (j 0).val = win0_5.index t (0 : Fin 2) * 5000 + 1 * (j 0).val; omega
    | ⟨1, _⟩ => show win0_0.index t (1 : Fin 2) * 128 + 1 * k.val = k.val; omega
  · show V c main_v19 (((cfg0.win 2).blk t).view.emb (ix2 k (j 1))) = V c main_v19 (ix2 k ((((cfg0.win 5).blk t).view.emb j) 1))
    refine congrArg (V c main_v19) (funext fun a => Fin.ext ?_)
    match a with
    | ⟨0, _⟩ => show win0_2.index t (0 : Fin 2) * 128 + 1 * k.val = k.val; omega
    | ⟨1, _⟩ => show win0_2.index t (1 : Fin 2) * 128 + 1 * (j 1).val = win0_5.index t (1 : Fin 2) * 128 + 1 * (j 1).val; omega
  · show V c main_v18 (((cfg0.win 1).blk t).view.emb (ix2 (j 0) k)) = V c main_v18 (ix2 ((((cfg0.win 5).blk t).view.emb j) 0) k)
    refine congrArg (V c main_v18) (funext fun a => Fin.ext ?_)
    match a with
    | ⟨0, _⟩ => show win0_1.index t (0 : Fin 2) * 5000 + 1 * (j 0).val = win0_5.index t (0 : Fin 2) * 5000 + 1 * (j 0).val; omega
    | ⟨1, _⟩ => show win0_1.index t (1 : Fin 2) * 128 + 1 * k.val = k.val; omega
  · show V c main_v20 (((cfg0.win 3).blk t).view.emb (ix2 k (j 1))) = V c main_v20 (ix2 k ((((cfg0.win 5).blk t).view.emb j) 1))
    refine congrArg (V c main_v20) (funext fun a => Fin.ext ?_)
    match a with
    | ⟨0, _⟩ => show win0_3.index t (0 : Fin 2) * 128 + 1 * k.val = k.val; omega
    | ⟨1, _⟩ => show win0_3.index t (1 : Fin 2) * 128 + 1 * (j 1).val = win0_5.index t (1 : Fin 2) * 128 + 1 * (j 1).val; omega
  · show V c main_v21 (((cfg0.win 4).blk t).view.emb (ix2 0 (j 1))) = V c main_v21 (ix2 0 ((((cfg0.win 5).blk t).view.emb j) 1))
    refine congrArg (V c main_v21) (funext fun a => Fin.ext ?_)
    match a with
    | ⟨0, _⟩ => show win0_4.index t (0 : Fin 2) * 1 + 1 * 0 = 0; omega
    | ⟨1, _⟩ => show win0_4.index t (1 : Fin 2) * 128 + 1 * (j 1).val = win0_5.index t (1 : Fin 2) * 128 + 1 * (j 1).val; omega

/-- An index of the output array is in point t's block iff each coordinate is in the block's range on its axis. -/
theorem mem_blk (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v22).slice (win0_5.rect t)).set ↔ _
  rw [View.set_slice_whole, Rect.mem_set_unit]
  exact Iff.rfl

/-- Every index of the output array is in some point's block: row r is in block r / 5000. -/
theorem cover (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 10 := N_0
  have hlt : (i 0).val / 5000 < cfg0.N := by rw [hN]; omega
  obtain ⟨-, -, -, -, -, -, -, -, -, -, e50, e51⟩ := idx_facts ⟨(i 0).val / 5000, hlt⟩
  have e50' : win0_5.index ⟨(i 0).val / 5000, hlt⟩ (0 : Fin 2) = (i 0).val / 5000 := e50
  refine ⟨⟨(i 0).val / 5000, hlt⟩, flush0_5 _, ?_⟩
  rw [mem_blk]
  intro a
  match a with
  | ⟨0, _⟩ =>
    show win0_5.index ⟨(i 0).val / 5000, hlt⟩ (0 : Fin 2) * 5000 ≤ (i 0).val ∧ (i 0).val < win0_5.index ⟨(i 0).val / 5000, hlt⟩ (0 : Fin 2) * 5000 + 5000
    rw [e50']; omega
  | ⟨1, _⟩ =>
    show win0_5.index ⟨(i 0).val / 5000, hlt⟩ (1 : Fin 2) * 128 ≤ (i 1).val ∧ (i 1).val < win0_5.index ⟨(i 0).val / 5000, hlt⟩ (1 : Fin 2) * 128 + 128
    rw [e51]; omega

/-- THE ARRAY after the call: the clamped layer of the arrays the call finds. -/
theorem final (c : Dev nD) : (dat0 V c).arrAt 5 cfg0.N = layer V c :=
  (dat0 V c).arrAt_eq_of_cover 5 (layer V c) (fun t _ => flushed_eq V c t) (cover)

end Cert.KernelIdeal.Layer1

end
-- ==== Proof.Layer2Value.lean ====
/-
  The second pallas_call's output array, at the ideal values, as one function of the arrays the call finds.

  The call walks the 50000 node rows in ten blocks of 5000. At a block it loads 5000 rows of the features and of the
  neighbour means, the two whole 128×64 weight matrices and the one-row bias, multiplies, adds, and stores 5000 rows of
  the output. Row r of the output lies in block r / 5000 and depends on row r of the two row-blocked inputs only, so the
  ten write-backs together are the layer  h·A + g·B + bias  of the whole arrays.
-/
import proofs.«120251_j60103772340328_1_alg».proof.Proof.Gen.KernelIdeal.Frame
import proofs.«120251_j60103772340328_1_alg».proof.Proof.LibMatmulPlain
import proofs.«120251_j60103772340328_1_alg».proof.Proof.SageLayer
import Idealize.ShloMosaic.Lib.Pipeline.Value
import Idealize.ShloMosaic.Lib.ValueIdx

set_option maxRecDepth 16384

noncomputable section

open scoped BigOperators

namespace Cert.KernelIdeal.Layer2

open Cert.KernelIdeal Cert.KernelIdeal.Gen
open Idealize.ShloMosaic Idealize.ShloMosaic.TcCoe Idealize.ShloMosaic.ValueIdx Idealize.SL.Sem
open Idealize.ShloMosaic.Pipeline (Dat)

-- the arrays as the call finds them, on each core
variable (V : (c : Dev nD) → (b : Ref sig .tc) → Buf (Elt Ideal) ((c : Thread nD τ).loc b))

/-- The node features the call reads (the first call's output). -/
abbrev feat (c : Dev nD) : Vec Ideal S50000x128 .f32 := V c main_v22
/-- The neighbour means the call reads. -/
abbrev nbr (c : Dev nD) : Vec Ideal S50000x128 .f32 := V c main_v41
/-- The two weight matrices, as [inputs, outputs]. -/
abbrev wSelf (c : Dev nD) : Vec Ideal S128x64 .f32 := V c main_v42
abbrev wNbr (c : Dev nD) : Vec Ideal S128x64 .f32 := V c main_v43
/-- The one-row bias. -/
abbrev biasRow (c : Dev nD) : Vec Ideal S1x64 .f32 := V c main_v44

/-- What the output array ends holding: the layer of the arrays the call finds. -/
def layer (c : Dev nD) : Vec Ideal S50000x64 .f32 :=
  Sage.dense (feat V c) (nbr V c) (wSelf V c) (wNbr V c) (biasRow V c)

theorem zeroOff : (![0, 0] : Fin 2 → Nat) = fun _ => 0 := funext fun a => by fin_cases a <;> rfl

/-- The body's stored value at entry (a, b) of a block: the two products into zero accumulators are the two sums over
    the 128 inner coordinates (the narrowing to bf16 is the identity here), their sum, and the bias row's entry b. -/
theorem pay_apply (x0 x3 : Vec Ideal S5000x128 .f32) (x6 x9 : Vec Ideal S128x64 .f32) (x15 : Vec Ideal S1x64 .f32)
    (a : Fin 5000) (b : Fin 64) :
    k1_pay1 x0 x3 x6 x9 x15 (ix2 a b) = Sage.denseAt x0 x3 x6 x9 x15 a b := by
  unfold k1_pay1 Sage.denseAt
  simp only [shapeCast_self]
  refine congrArg₂ (· + ·) (congrArg₂ (· + ·) ?_ ?_) ?_
  · exact Cert.LibMatmulPlain.matmul_plain_zero_apply none _ _ a b
  · exact Cert.LibMatmulPlain.matmul_plain_zero_apply none _ _ a b
  · exact Cert.LibMatmulPlain.rowBroadcast_apply x15 _ a b

/-- The printed index maps over the ten grid points: the two row-blocked inputs and the output sit at block (t, 0), the
    weights and the bias at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The stored value at any index of a block, by its two coordinates. -/
theorem pay_idx (x0 x3 : Vec Ideal S5000x128 .f32) (x6 x9 : Vec Ideal S128x64 .f32) (x15 : Vec Ideal S1x64 .f32)
    (y : S5000x64.Idx) :
    k1_pay1 x0 x3 x6 x9 x15 y = Sage.denseAt x0 x3 x6 x9 x15 (y 0) (y 1) := by
  obtain ⟨a, b, rfl⟩ : ∃ (a : Fin 5000) (b : Fin 64), y = ix2 a b := ⟨y 0, y 1, eq_ix2 y⟩
  exact pay_apply x0 x3 x6 x9 x15 a b

/-- WHAT POINT t WRITES BACK is block t of the layer of the arrays the call finds: the block's row p is array row
    5000·t + p, read from the same row of the two row-blocked inputs; the weights and the bias are read whole. -/
theorem flushed_eq (c : Dev nD) (t : Fin cfg1.N) :
    (dat1 V c).flushed 5 t = ((cfg1.win 5).blk t).view.read (Elt Ideal) (layer V c) := by
  show (cfg1.win 5).cut (grid1.coords t) ((dat1 V c).after 5 t) = _
  rw [after1_5]
  unfold out1_5
  rw [View.canon_unit_zero zeroOff]
  simp only [View.ld_unit_zero (S := S5000x128) zeroOff, View.ld_unit_zero (S := S128x64) zeroOff, View.ld_unit_zero (S := S1x64) zeroOff]
  obtain ⟨e00, e01, e10, e11, e20, e21, e30, e31, e40, e41, e50, e51⟩ := idx_facts t
  funext j
  have hj0 : (j 0).val < 5000 := (j 0).isLt
  have hj1 : (j 1).val < 64 := (j 1).isLt
  refine (pay_idx (iblk1 V c 0 t) (iblk1 V c 1 t) (iblk1 V c 2 t) (iblk1 V c 3 t) (iblk1 V c 4 t) j).trans ?_
  show Sage.denseAt (iblk1 V c 0 t) (iblk1 V c 1 t) (iblk1 V c 2 t) (iblk1 V c 3 t) (iblk1 V c 4 t) (j 0) (j 1)
    = Sage.denseAt (feat V c) (nbr V c) (wSelf V c) (wNbr V c) (biasRow V c)
        ((((cfg1.win 5).blk t).view.emb j) 0) ((((cfg1.win 5).blk t).view.emb j) 1)
  unfold Sage.denseAt
  refine congrArg₂ (· + ·) (congrArg₂ (· + ·) (Finset.sum_congr rfl fun k _ => congrArg₂ (· * ·) ?_ ?_)
    (Finset.sum_congr rfl fun k _ => congrArg₂ (· * ·) ?_ ?_)) ?_
  · show V c main_v22 (((cfg1.win 0).blk t).view.emb (ix2 (j 0) k)) = V c main_v22 (ix2 ((((cfg1.win 5).blk t).view.emb j) 0) k)
    refine congrArg (V c main_v22) (funext fun a => Fin.ext ?_)
    match a with
    | ⟨0, _⟩ => show win1_0.index t (0 : Fin 2) * 5000 + 1 * (j 0).val = win1_5.index t (0 : Fin 2) * 5000 + 1 * (j 0).val; omega
    | ⟨1, _⟩ => show win1_0.index t (1 : Fin 2) * 128 + 1 * k.val = k.val; omega
  · show V c main_v42 (((cfg1.win 2).blk t).view.emb (ix2 k (j 1))) = V c main_v42 (ix2 k ((((cfg1.win 5).blk t).view.emb j) 1))
    refine congrArg (V c main_v42) (funext fun a => Fin.ext ?_)
    match a with
    | ⟨0, _⟩ => show win1_2.index t (0 : Fin 2) * 128 + 1 * k.val = k.val; omega
    | ⟨1, _⟩ => show win1_2.index t (1 : Fin 2) * 64 + 1 * (j 1).val = win1_5.index t (1 : Fin 2) * 64 + 1 * (j 1).val; omega
  · show V c main_v41 (((cfg1.win 1).blk t).view.emb (ix2 (j 0) k)) = V c main_v41 (ix2 ((((cfg1.win 5).blk t).view.emb j) 0) k)
    refine congrArg (V c main_v41) (funext fun a => Fin.ext ?_)
    match a with
    | ⟨0, _⟩ => show win1_1.index t (0 : Fin 2) * 5000 + 1 * (j 0).val = win1_5.index t (0 : Fin 2) * 5000 + 1 * (j 0).val; omega
    | ⟨1, _⟩ => show win1_1.index t (1 : Fin 2) * 128 + 1 * k.val = k.val; omega
  · show V c main_v43 (((cfg1.win 3).blk t).view.emb (ix2 k (j 1))) = V c main_v43 (ix2 k ((((cfg1.win 5).blk t).view.emb j) 1))
    refine congrArg (V c main_v43) (funext fun a => Fin.ext ?_)
    match a with
    | ⟨0, _⟩ => show win1_3.index t (0 : Fin 2) * 128 + 1 * k.val = k.val; omega
    | ⟨1, _⟩ => show win1_3.index t (1 : Fin 2) * 64 + 1 * (j 1).val = win1_5.index t (1 : Fin 2) * 64 + 1 * (j 1).val; omega
  · show V c main_v44 (((cfg1.win 4).blk t).view.emb (ix2 0 (j 1))) = V c main_v44 (ix2 0 ((((cfg1.win 5).blk t).view.emb j) 1))
    refine congrArg (V c main_v44) (funext fun a => Fin.ext ?_)
    match a with
    | ⟨0, _⟩ => show win1_4.index t (0 : Fin 2) * 1 + 1 * 0 = 0; omega
    | ⟨1, _⟩ => show win1_4.index t (1 : Fin 2) * 64 + 1 * (j 1).val = win1_5.index t (1 : Fin 2) * 64 + 1 * (j 1).val; omega

/-- An index of the output array is in point t's block iff each coordinate is in the block's range on its axis. -/
theorem mem_blk (t : Fin cfg1.N) (i : S50000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v45).slice (win1_5.rect t)).set ↔ _
  rw [View.set_slice_whole, Rect.mem_set_unit]
  exact Iff.rfl

/-- Every index of the output array is in some point's block: row r is in block r / 5000. -/
theorem cover (i : S50000x64.Idx) : ∃ t : Fin cfg1.N, (cfg1.win 5).flush t = true ∧ i ∈ ((cfg1.win 5).blk t).view.set := by
  have hi0 : (i 0).val < 50000 := (i 0).isLt
  have hi1 : (i 1).val < 64 := (i 1).isLt
  have hN : cfg1.N = 10 := N_1
  have hlt : (i 0).val / 5000 < cfg1.N := by rw [hN]; omega
  obtain ⟨-, -, -, -, -, -, -, -, -, -, e50, e51⟩ := idx_facts ⟨(i 0).val / 5000, hlt⟩
  have e50' : win1_5.index ⟨(i 0).val / 5000, hlt⟩ (0 : Fin 2) = (i 0).val / 5000 := e50
  refine ⟨⟨(i 0).val / 5000, hlt⟩, flush1_5 _, ?_⟩
  rw [mem_blk]
  intro a
  match a with
  | ⟨0, _⟩ =>
    show win1_5.index ⟨(i 0).val / 5000, hlt⟩ (0 : Fin 2) * 5000 ≤ (i 0).val ∧ (i 0).val < win1_5.index ⟨(i 0).val / 5000, hlt⟩ (0 : Fin 2) * 5000 + 5000
    rw [e50']; omega
  | ⟨1, _⟩ =>
    show win1_5.index ⟨(i 0).val / 5000, hlt⟩ (1 : Fin 2) * 64 ≤ (i 1).val ∧ (i 1).val < win1_5.index ⟨(i 0).val / 5000, hlt⟩ (1 : Fin 2) * 64 + 64
    rw [e51]; omega

/-- THE ARRAY after the call: the layer of the arrays the call finds. -/
theorem final (c : Dev nD) : (dat1 V c).arrAt 5 cfg1.N = layer V c :=
  (dat1 V c).arrAt_eq_of_cover 5 (layer V c) (fun t _ => flushed_eq V c t) (cover)

end Cert.KernelIdeal.Layer2

end
-- ==== Proof.Network.lean ====
/-
  The whole computation, at the ideal values, as one function of the nine argument arrays.

  * The neighbour mean of a feature array h along the edge list (src, dst): gather the rows h[src] (a negative index
    counted from the end), add them into their destination rows, count each destination's edges, and divide each row by
    its count clamped below at one. Both programs spell this with the same host operations, so it is carried here as ONE
    function of (h, src, dst) and never opened.
  * The hidden features: the clamped layer of the input features, their neighbour mean, the two first-layer weight
    matrices transposed to [inputs, outputs] and the first bias as a one-row array.
  * The result: the unclamped layer of the hidden features, their neighbour mean, the second-layer weights transposed and
    the second bias as a one-row array.
-/
import proofs.«120251_j60103772340328_1_alg».proof.KernelIdeal
import proofs.«120251_j60103772340328_1_alg».proof.Proof.Gen.KernelIdeal
import proofs.«120251_j60103772340328_1_alg».proof.Proof.SageLayer

noncomputable section

namespace Cert.Network

open Cert.KernelIdeal Cert.KernelIdeal.Gen
open Idealize.ShloMosaic

/-- The neighbour mean of h along the edges (src → dst): Σ over edges into a node of h[src], over max(#edges into it, 1). -/
def nbrMean (h : FVec Ideal S50000x128 .f32) (src dst : IVec S640000 32) : FVec Ideal S50000x128 .f32 :=
  Host.divf (F := Ideal)
    (Host.scatterAdd (F := Ideal) scatter_S50000x128_S640000x1_S640000x128_1_0_0_1
      (broadcastInDim S50000x128 ![] bcast_S_S50000x128 (constant (F := Ideal) S_ .f32 0x00000000#32))
      (broadcastInDim S640000x1 ![0] bcast_S640000_S640000x1_0 dst)
      (Host.gather gather_S50000x128_S640000x1_S640000x128_1_0_n_n_0_1_1128 h
        (broadcastInDim S640000x1 ![0] bcast_S640000_S640000x1_0
          (select (cmpi .slt src (broadcastInDim S640000 ![] bcast_S_S640000 (constantI S_ 32 0#32)))
            (addi src (broadcastInDim S640000 ![] bcast_S_S640000 (constantI S_ 32 50000#32))) src))))
    (broadcastInDim S50000x128 ![0, 1] bcast_S50000x1_S50000x128_0_1
      (broadcastInDim S50000x1 ![0] bcast_S50000_S50000x1_0
        (maximumf (F := Ideal)
          (Host.scatterAdd (F := Ideal) scatter_S50000_S640000x1_S640000_n_0_0_1
            (broadcastInDim S50000 ![] bcast_S_S50000 (constant (F := Ideal) S_ .f32 0x00000000#32))
            (broadcastInDim S640000x1 ![0] bcast_S640000_S640000x1_0 dst)
            (broadcastInDim S640000 ![] bcast_S_S640000 (constant (F := Ideal) S_ .f32 0x3F800000#32)))
          (broadcastInDim S50000 ![] bcast_S_S50000 (constant (F := Ideal) S_ .f32 0x3F800000#32)))))

/-- The hidden features: max(x·Ws₁ᵀ + mean(x)·Wn₁ᵀ + b₁, 0). -/
def hidden (x : FVec Ideal S50000x128 .f32) (ws1 wn1 : FVec Ideal S128x128 .f32) (b1 : FVec Ideal S128 .f32)
    (src dst : IVec S640000 32) : FVec Ideal S50000x128 .f32 :=
  Sage.reluDense x (nbrMean x src dst)
    (transpose S128x128 [1, 0] ws1 transposes_S128x128_S128x128_1_0)
    (transpose S128x128 [1, 0] wn1 transposes_S128x128_S128x128_1_0)
    (shapeCast S1x128 b1 shapeCasts_S128_S1x128)

/-- The result: hidden·Ws₂ᵀ + mean(hidden)·Wn₂ᵀ + b₂. -/
def output (x : FVec Ideal S50000x128 .f32) (ws1 wn1 : FVec Ideal S128x128 .f32) (b1 : FVec Ideal S128 .f32)
    (ws2 wn2 : FVec Ideal S64x128 .f32) (b2 : FVec Ideal S64 .f32) (src dst : IVec S640000 32) :
    FVec Ideal S50000x64 .f32 :=
  Sage.dense (hidden x ws1 wn1 b1 src dst) (nbrMean (hidden x ws1 wn1 b1 src dst) src dst)
    (transpose S128x64 [1, 0] ws2 transposes_S64x128_S128x64_1_0)
    (transpose S128x64 [1, 0] wn2 transposes_S64x128_S128x64_1_0)
    (shapeCast S1x64 b2 shapeCasts_S64_S1x64)

end Cert.Network

end
-- ==== Proof.KernelValue.lean ====
/-
  The kernel program's result as the network of its arguments, at the ideal values.

  The program is four stretches: host operations, the first pallas_call, host operations, the second pallas_call. The
  contents of every buffer at each boundary are a fold of the stretches before it. Read backwards from the result:
  the second call leaves the layer of what it finds (its five input arrays); of those, the features are the first
  call's output, untouched by the host operations in between; the neighbour means, the transposed weights and the bias row
  are the second host stretch's values of that output and of the arguments; the first call's output is the clamped layer
  of what it finds, which the first host stretch computed from the arguments alone. No operation writes an argument, so
  an argument's buffer holds the launch contents at every boundary.
-/
import proofs.«120251_j60103772340328_1_alg».proof.Proof.Gen.KernelIdeal.Frame
import proofs.«120251_j60103772340328_1_alg».proof.Proof.KernelRunKept
import proofs.«120251_j60103772340328_1_alg».proof.Proof.Layer1Value
import proofs.«120251_j60103772340328_1_alg».proof.Proof.Layer2Value
import proofs.«120251_j60103772340328_1_alg».proof.Proof.Network
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## The arguments, by their literal types -/

abbrev x (c : Dev nD) : FVec Ideal S50000x128 .f32 := m ((c.tc : Thread nD τ).loc main_arg0)
abbrev ws1 (c : Dev nD) : FVec Ideal S128x128 .f32 := m ((c.tc : Thread nD τ).loc main_arg1)
abbrev wn1 (c : Dev nD) : FVec Ideal S128x128 .f32 := m ((c.tc : Thread nD τ).loc main_arg2)
abbrev b1 (c : Dev nD) : FVec Ideal S128 .f32 := m ((c.tc : Thread nD τ).loc main_arg3)
abbrev ws2 (c : Dev nD) : FVec Ideal S64x128 .f32 := m ((c.tc : Thread nD τ).loc main_arg4)
abbrev wn2 (c : Dev nD) : FVec Ideal S64x128 .f32 := m ((c.tc : Thread nD τ).loc main_arg5)
abbrev b2 (c : Dev nD) : FVec Ideal S64 .f32 := m ((c.tc : Thread nD τ).loc main_arg6)
abbrev src (c : Dev nD) : IVec S640000 32 := m ((c.tc : Thread nD τ).loc main_arg7)
abbrev dst (c : Dev nD) : IVec S640000 32 := m ((c.tc : Thread nD τ).loc main_arg8)

/-! ## What the first call finds -/

theorem feat1 (c : Dev nD) : Layer1.feat (V1 m ρ) c = x m c := by
  show StableHlo.after hostOps0 (W0 m ρ c) (Proc.devRef .tc main_arg0) = _
  dsimp only [hostOps0]
  after_results

set_option maxHeartbeats 4000000 in
theorem nbr1 (c : Dev nD) : Layer1.nbr (V1 m ρ) c = Network.nbrMean (x m c) (src m c) (dst m c) := by
  show StableHlo.after hostOps0 (W0 m ρ c) (Proc.devRef .tc main_v18) = _
  dsimp only [hostOps0]
  after_results_simp
  rfl

theorem wSelf1 (c : Dev nD) : Layer1.wSelf (V1 m ρ) c = transpose S128x128 [1, 0] (ws1 m c) transposes_S128x128_S128x128_1_0 := by
  show StableHlo.after hostOps0 (W0 m ρ c) (Proc.devRef .tc main_v19) = _
  dsimp only [hostOps0]
  after_results

theorem wNbr1 (c : Dev nD) : Layer1.wNbr (V1 m ρ) c = transpose S128x128 [1, 0] (wn1 m c) transposes_S128x128_S128x128_1_0 := by
  show StableHlo.after hostOps0 (W0 m ρ c) (Proc.devRef .tc main_v20) = _
  dsimp only [hostOps0]
  after_results

theorem bias1 (c : Dev nD) : Layer1.biasRow (V1 m ρ) c = shapeCast S1x128 (b1 m c) shapeCasts_S128_S1x128 := by
  show StableHlo.after hostOps0 (W0 m ρ c) (Proc.devRef .tc main_v21) = _
  dsimp only [hostOps0]
  after_results
  rfl

/-! ## After the first call -/

/-- The first call's output array: the hidden features of the arguments. -/
theorem hidden_at_exit (c : Dev nD) :
    W2 m ρ c (Proc.devRef .tc main_v22) = Network.hidden (x m c) (ws1 m c) (wn1 m c) (b1 m c) (src m c) (dst m c) := by
  refine (W2_arr m ρ c 5).trans ((Layer1.final (V1 m ρ) c).trans ?_)
  unfold Layer1.layer Network.hidden
  rw [feat1, nbr1, wSelf1, wNbr1, bias1]

/-- An argument the first call does not write holds its launch contents after it. -/
theorem arg_at_exit (c : Dev nD) (b : Ref sig .tc) (hb : ∀ w, Pipeline.arrRef spec0 w ≠ b)
    (h0 : StableHlo.after hostOps0 (W0 m ρ c) (Proc.devRef .tc b) = m ((c.tc : Thread nD τ).loc b)) :
    W2 m ρ c (Proc.devRef .tc b) = m ((c.tc : Thread nD τ).loc b) :=
  (W2_of_ne m ρ c b hb).trans h0

theorem ws2_at_exit (c : Dev nD) : W2 m ρ c (Proc.devRef .tc main_arg4) = ws2 m c :=
  arg_at_exit m ρ c main_arg4 (by decide) (by dsimp only [hostOps0]; after_results)
theorem wn2_at_exit (c : Dev nD) : W2 m ρ c (Proc.devRef .tc main_arg5) = wn2 m c :=
  arg_at_exit m ρ c main_arg5 (by decide) (by dsimp only [hostOps0]; after_results)
theorem b2_at_exit (c : Dev nD) : W2 m ρ c (Proc.devRef .tc main_arg6) = b2 m c :=
  arg_at_exit m ρ c main_arg6 (by decide) (by dsimp only [hostOps0]; after_results)
theorem src_at_exit (c : Dev nD) : W2 m ρ c (Proc.devRef .tc main_arg7) = src m c :=
  arg_at_exit m ρ c main_arg7 (by decide) (by dsimp only [hostOps0]; after_results)
theorem dst_at_exit (c : Dev nD) : W2 m ρ c (Proc.devRef .tc main_arg8) = dst m c :=
  arg_at_exit m ρ c main_arg8 (by decide) (by dsimp only [hostOps0]; after_results)

/-! ## What the second call finds -/

theorem feat2 (c : Dev nD) :
    Layer2.feat (V3 m ρ) c = Network.hidden (x m c) (ws1 m c) (wn1 m c) (b1 m c) (src m c) (dst m c) := by
  show StableHlo.after hostOps1 (W2 m ρ c) (Proc.devRef .tc main_v22) = _
  dsimp only [hostOps1]
  after_results
  exact hidden_at_exit m ρ c

set_option maxHeartbeats 4000000 in
theorem nbr2 (c : Dev nD) :
    Layer2.nbr (V3 m ρ) c
      = Network.nbrMean (Network.hidden (x m c) (ws1 m c) (wn1 m c) (b1 m c) (src m c) (dst m c)) (src m c) (dst m c) := by
  show StableHlo.after hostOps1 (W2 m ρ c) (Proc.devRef .tc main_v41) = _
  dsimp only [hostOps1]
  after_results_simp
  rw [hidden_at_exit, src_at_exit, dst_at_exit]
  rfl

theorem wSelf2 (c : Dev nD) : Layer2.wSelf (V3 m ρ) c = transpose S128x64 [1, 0] (ws2 m c) transposes_S64x128_S128x64_1_0 := by
  show StableHlo.after hostOps1 (W2 m ρ c) (Proc.devRef .tc main_v42) = _
  dsimp only [hostOps1]
  after_results
  rw [ws2_at_exit]

theorem wNbr2 (c : Dev nD) : Layer2.wNbr (V3 m ρ) c = transpose S128x64 [1, 0] (wn2 m c) transposes_S64x128_S128x64_1_0 := by
  show StableHlo.after hostOps1 (W2 m ρ c) (Proc.devRef .tc main_v43) = _
  dsimp only [hostOps1]
  after_results
  rw [wn2_at_exit]

theorem bias2 (c : Dev nD) : Layer2.biasRow (V3 m ρ) c = shapeCast S1x64 (b2 m c) shapeCasts_S64_S1x64 := by
  show StableHlo.after hostOps1 (W2 m ρ c) (Proc.devRef .tc main_v44) = _
  dsimp only [hostOps1]
  after_results
  rw [b2_at_exit]
  rfl

/-! ## The result -/

/-- The result buffer at the last boundary: the network of the arguments. -/
theorem result_at_end (c : Dev nD) :
    W4 m ρ c (Proc.devRef .tc main_v45)
      = Network.output (x m c) (ws1 m c) (wn1 m c) (b1 m c) (ws2 m c) (wn2 m c) (b2 m c) (src m c) (dst m c) := by
  refine (W4_arr m ρ c 5).trans ((Layer2.final (V3 m ρ) c).trans ?_)
  unfold Layer2.layer Network.output
  rw [feat2, nbr2, wSelf2, wNbr2, bias2]

/-- THE RUN, READ: every weakly fair execution terminates with the result buffer at the network of the arguments and the
    arguments unchanged. -/
theorem run : θ_run defs (onTc (τ := τ) (main (F := Ideal))) ⟨m, fun _ => 0, ρ⟩ (fun r => ∀ c : Dev nD,
      r.2.mem ((c.tc : Thread nD τ).loc main_v45)
        = Network.output (x m c) (ws1 m c) (wn1 m c) (b1 m c) (ws2 m c) (wn2 m c) (b2 m c) (src m c) (dst m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (result_at_end m ρ c), (h c).2⟩) (Kept.run_kept m ρ)

end Cert.KernelIdeal.Whole

end
-- ==== Proof.SageHost.lean ====
/-
  The same layer spelt with host operations, at the ideal values.

  A host program writes a layer as: two plain matrix products (each contracting the left operand's columns with the right
  operand's rows), their sum, a one-row bias broadcast down the rows and added, and for the first layer the elementwise
  maximum with a broadcast zero. Read at entry (a, b) a plain product is the sum over the inner coordinate, the broadcast
  row is its entry b and the broadcast zero is zero, so the whole array is the layer of SageLayer.
  A length-n bias laid out as one row is the same [1, n] array whether it was reshaped or broadcast there.
-/
import Idealize.ShloMosaic.PureOps.Ideal.Laws
import Idealize.ShloMosaic.Lib.ValueIdx
import Idealize.ShloMosaic.Lib.StackMember
import Idealize.ShloMosaic.Lib.Pipeline.Value
import proofs.«120251_j60103772340328_1_alg».proof.Proof.SageLayer

noncomputable section

open scoped BigOperators

namespace Cert.Sage

open Idealize.ShloMosaic Idealize.ShloMosaic.ValueIdx

/-- A one-row array broadcast down m rows (axes kept in place), read at (a, b), is the row's entry b. -/
theorem bcastRow_apply {m n : Nat} (row : FVec Ideal ⟨2, ![1, n]⟩ .f32)
    (hb : (⟨2, ![1, n]⟩ : Shape).BroadcastsInDim ⟨2, ![m, n]⟩ (![0, 1] : Fin 2 → Fin 2)) (a : Fin m) (b : Fin n) :
    broadcastInDim ⟨2, ![m, n]⟩ ![0, 1] hb row (ix2 a b) = row (ix2 0 b) := by
  refine broadcastInDim_apply _ hb row (ix2 a b) (ix2 0 b) fun ax => ?_
  match ax with
  | ⟨0, _⟩ => show (0 : Nat) = if (1 : Nat) = 1 then 0 else a.val; rw [if_pos rfl]
  | ⟨1, _⟩ =>
    show b.val = if n = 1 then 0 else b.val
    split
    · have := b.isLt; omega
    · rfl

/-- A scalar broadcast to an array, read anywhere, is the scalar. -/
theorem bcastScalar_apply {m n : Nat} (z : FVec Ideal ⟨0, ![]⟩ .f32)
    (hz : (⟨0, ![]⟩ : Shape).BroadcastsInDim ⟨2, ![m, n]⟩ (![] : Fin 0 → Fin 2)) (i : (⟨2, ![m, n]⟩ : Shape).Idx) :
    broadcastInDim ⟨2, ![m, n]⟩ ![] hz z i = z ix0 :=
  broadcastInDim_apply _ hz z i ix0 fun ax => ax.elim0

/-- The host's spelling of a layer without the clamp is the layer. -/
theorem host_dense {m k n : Nat} (d : DotDims ⟨2, ![m, k]⟩ ⟨2, ![k, n]⟩ ⟨2, ![m, n]⟩) (hd : d = DotDims.plain m k n)
    (h g : FVec Ideal ⟨2, ![m, k]⟩ .f32) (A B : FVec Ideal ⟨2, ![k, n]⟩ .f32) (row : FVec Ideal ⟨2, ![1, n]⟩ .f32)
    (hb : (⟨2, ![1, n]⟩ : Shape).BroadcastsInDim ⟨2, ![m, n]⟩ (![0, 1] : Fin 2 → Fin 2)) :
    addf (addf (Host.dotGeneral d none h A) (Host.dotGeneral d none g B)) (broadcastInDim ⟨2, ![m, n]⟩ ![0, 1] hb row)
      = dense h g A B row := by
  subst hd
  funext i
  obtain ⟨a, b, rfl⟩ : ∃ (a : Fin m) (b : Fin n), i = ix2 a b := ⟨i 0, i 1, eq_ix2 i⟩
  show (Host.dotGeneral (DotDims.plain m k n) none h A (ix2 a b) + Host.dotGeneral (DotDims.plain m k n) none g B (ix2 a b))
      + broadcastInDim ⟨2, ![m, n]⟩ ![0, 1] hb row (ix2 a b) = denseAt h g A B row a b
  rw [StackMember.dotGeneral_plain_apply, StackMember.dotGeneral_plain_apply, bcastRow_apply]
  rfl

/-- The host's spelling of the clamped layer is the clamped layer. -/
theorem host_reluDense {m k n : Nat} (d : DotDims ⟨2, ![m, k]⟩ ⟨2, ![k, n]⟩ ⟨2, ![m, n]⟩) (hd : d = DotDims.plain m k n)
    (h g : FVec Ideal ⟨2, ![m, k]⟩ .f32) (A B : FVec Ideal ⟨2, ![k, n]⟩ .f32) (row : FVec Ideal ⟨2, ![1, n]⟩ .f32)
    (hb : (⟨2, ![1, n]⟩ : Shape).BroadcastsInDim ⟨2, ![m, n]⟩ (![0, 1] : Fin 2 → Fin 2))
    (hz : (⟨0, ![]⟩ : Shape).BroadcastsInDim ⟨2, ![m, n]⟩ (![] : Fin 0 → Fin 2)) :
    maximumf (addf (addf (Host.dotGeneral d none h A) (Host.dotGeneral d none g B)) (broadcastInDim ⟨2, ![m, n]⟩ ![0, 1] hb row))
        (broadcastInDim ⟨2, ![m, n]⟩ ![] hz (constant (F := Ideal) ⟨0, ![]⟩ .f32 0x00000000#32))
      = reluDense h g A B row := by
  rw [host_dense d hd h g A B row hb]
  funext i
  show max (dense h g A B row i) (broadcastInDim ⟨2, ![m, n]⟩ ![] hz (constant (F := Ideal) ⟨0, ![]⟩ .f32 0x00000000#32) i) = _
  rw [bcastScalar_apply]
  rfl

/-- A length-n array as one row: broadcast into the second axis, or reshaped — the same [1, n] array. -/
theorem rowOfBroadcast_eq_rowOfReshape {n : Nat} (b : FVec Ideal ⟨1, ![n]⟩ .f32)
    (h1 : (⟨1, ![n]⟩ : Shape).BroadcastsInDim ⟨2, ![1, n]⟩ (![1] : Fin 1 → Fin 2))
    (h2 : (⟨1, ![n]⟩ : Shape).ShapeCasts ⟨2, ![1, n]⟩) :
    broadcastInDim ⟨2, ![1, n]⟩ ![1] h1 b = shapeCast ⟨2, ![1, n]⟩ b h2 := by
  funext i
  obtain ⟨z, j, rfl⟩ : ∃ (z : Fin 1) (j : Fin n), i = ix2 z j := ⟨i 0, i 1, eq_ix2 i⟩
  have e1 : broadcastInDim ⟨2, ![1, n]⟩ ![1] h1 b (ix2 z j) = b (ix1 j) :=
    broadcastInDim_apply _ h1 b (ix2 z j) (ix1 j) fun ax => by
      match ax with
      | ⟨0, _⟩ =>
        show j.val = if n = 1 then 0 else j.val
        split
        · have := j.isLt; omega
        · rfl
  have e2 : shapeCast ⟨2, ![1, n]⟩ b h2 (ix2 z j) = b (ix1 j) :=
    (shapeCast_addUnit_apply ![n] b h2 (ix2 z j)).trans
      (congrArg b (funext fun ax => by match ax with | ⟨0, _⟩ => rfl))
  rw [e1, e2]

end Cert.Sage

end
-- ==== Proof.RefValue.lean ====
/-
  The reference program's result as the network of its arguments, at the ideal values.

  The reference is host operations only. Its run ends with the result at the operations' composed term of the arguments;
  read one operation at a time that term is: the neighbour mean of the input features (the shared host chain, the same
  operations the kernel program runs), the first layer spelt with two plain matrix products, a broadcast bias and a
  maximum with zero, the neighbour mean of that, and the second layer spelt the same way without the maximum. Each layer's
  host spelling is the layer (SageHost); the bias reaches its one-row form by a broadcast where the kernel program reshapes,
  which is the same array.
-/
import proofs.«120251_j60103772340328_1_alg».proof.Proof.Gen.ReferenceIdeal.Run
import proofs.«120251_j60103772340328_1_alg».proof.Proof.Gen.ReferenceIdeal.Read
import proofs.«120251_j60103772340328_1_alg».proof.Proof.Network
import proofs.«120251_j60103772340328_1_alg».proof.Proof.SageHost

set_option maxRecDepth 16384

noncomputable section

namespace Cert.ReferenceIdeal.Whole

open Cert.ReferenceIdeal Cert.ReferenceIdeal.Gen Cert.ReferenceIdeal.Read
open Idealize.ShloMosaic Idealize.ShloMosaic.TcCoe Idealize.SL.Sem

/-- The reference's neighbour-mean stretch over the input features is the shared chain. -/
theorem nbr_first (x0 : (⟨S50000x128, .f32⟩ : BufTy).Contents (Elt Ideal)) (x7 x8 : (⟨S640000, .i32⟩ : BufTy).Contents (Elt Ideal)) :
    val_main_v18 (F := Ideal) x0 x7 x8 = Cert.Network.nbrMean x0 x7 x8 := by
  unfold val_main_v18 val_main_v9 val_main_v17 val_main_v16 val_main_v15 val_main_v14 val_main_v13 val_main_v12 val_main_v11
    val_main_v10 val_main_cst_3 val_main_cst_2 val_main_cst_1 val_main_v8 val_main_v7 val_main_cst val_main_v6 val_main_v5
    val_main_v4 val_main_v3 val_main_v2 val_main_c_0 val_main_v1 val_main_v0 val_main_c Cert.Network.nbrMean
  rfl

/-- The reference's first layer is the hidden features. -/
theorem hidden_eq (x0 : (⟨S50000x128, .f32⟩ : BufTy).Contents (Elt Ideal)) (x1 x2 : (⟨S128x128, .f32⟩ : BufTy).Contents (Elt Ideal))
    (x3 : (⟨S128, .f32⟩ : BufTy).Contents (Elt Ideal)) (x7 x8 : (⟨S640000, .i32⟩ : BufTy).Contents (Elt Ideal)) :
    val_main_v27 (F := Ideal) x0 x1 x2 x3 x7 x8 = Cert.Network.hidden x0 x1 x2 x3 x7 x8 := by
  unfold val_main_v27 val_main_v26 val_main_v23 val_main_v20 val_main_v22 val_main_v25 val_main_v24 val_main_v19 val_main_v21
    val_main_call0_v0 val_main_call0_cst Cert.Network.hidden
  rw [nbr_first, Cert.Sage.rowOfBroadcast_eq_rowOfReshape x3 bcast_S128_S1x128_1 Cert.KernelIdeal.Gen.shapeCasts_S128_S1x128]
  exact Cert.Sage.host_reluDense dot_S50000x128_S128x128_S50000x128_1_0_0_1_n_n rfl _ _ _ _ _ _ _

/-- The reference's second neighbour-mean stretch is the shared chain over the hidden features. -/
theorem nbr_second (x0 : (⟨S50000x128, .f32⟩ : BufTy).Contents (Elt Ideal)) (x1 x2 : (⟨S128x128, .f32⟩ : BufTy).Contents (Elt Ideal))
    (x3 : (⟨S128, .f32⟩ : BufTy).Contents (Elt Ideal)) (x7 x8 : (⟨S640000, .i32⟩ : BufTy).Contents (Elt Ideal)) :
    val_main_v46 (F := Ideal) x0 x1 x2 x3 x7 x8 = Cert.Network.nbrMean (val_main_v27 (F := Ideal) x0 x1 x2 x3 x7 x8) x7 x8 := by
  unfold val_main_v46 val_main_v37 val_main_v45 val_main_v44 val_main_v43 val_main_v42 val_main_v41 val_main_v40 val_main_v39
    val_main_v38 val_main_cst_9 val_main_cst_8 val_main_cst_7 val_main_v36 val_main_v35 val_main_cst_6 val_main_v34 val_main_v33
    val_main_v32 val_main_v31 val_main_v30 val_main_c_5 val_main_v29 val_main_v28 val_main_c_4 Cert.Network.nbrMean
  rfl

/-- The reference's last stage is the network of its arguments. -/
theorem output_eq (x0 : (⟨S50000x128, .f32⟩ : BufTy).Contents (Elt Ideal)) (x1 x2 : (⟨S128x128, .f32⟩ : BufTy).Contents (Elt Ideal))
    (x3 : (⟨S128, .f32⟩ : BufTy).Contents (Elt Ideal)) (x4 x5 : (⟨S64x128, .f32⟩ : BufTy).Contents (Elt Ideal))
    (x6 : (⟨S64, .f32⟩ : BufTy).Contents (Elt Ideal)) (x7 x8 : (⟨S640000, .i32⟩ : BufTy).Contents (Elt Ideal)) :
    val_main_v54 (F := Ideal) x0 x1 x2 x3 x4 x5 x6 x7 x8 = Cert.Network.output x0 x1 x2 x3 x4 x5 x6 x7 x8 := by
  unfold val_main_v54 val_main_v51 val_main_v48 val_main_v50 val_main_v53 val_main_v52 val_main_v47 val_main_v49 Cert.Network.output
  rw [nbr_second, hidden_eq, Cert.Sage.rowOfBroadcast_eq_rowOfReshape x6 bcast_S64_S1x64_1 Cert.KernelIdeal.Gen.shapeCasts_S64_S1x64]
  exact Cert.Sage.host_dense dot_S50000x128_S128x64_S50000x64_1_0_0_1_n_n rfl _ _ _ _ _ _

/-- The run's composed term of the arguments is the network of the arguments. -/
theorem result_eq (m : (ℓ : Loc nD τ sig) → Buf (Elt Ideal) ℓ) (c : Dev nD) :
    Cert.ReferenceIdeal.Value.res_main_v54 (F := Ideal) m c
      = Cert.Network.output (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) :=
  (val_main_v54_eq m c).trans (output_eq _ _ _ _ _ _ _ _ _)

end Cert.ReferenceIdeal.Whole

end
-- ==== Proof.lean ====
/-
  A two-layer mean-aggregating graph network: the tiled kernel program against the plain host program, equal over the
  extended reals.

  Both programs compute, for 50000 nodes with 128 input features and an edge list (src, dst) of 640000 edges,
      hidden = max(x·Ws₁ᵀ + mean(x)·Wn₁ᵀ + b₁, 0),      result = hidden·Ws₂ᵀ + mean(hidden)·Wn₂ᵀ + b₂,
  where mean(h) gathers the rows h[src], adds them into their destination rows and divides each row by its edge count
  clamped below at one. The neighbour mean is the same host operations in both programs. A layer is, in the kernel
  program, a pallas_call over ten blocks of 5000 rows whose body multiplies bf16-narrowed blocks into zero accumulators
  (the narrowing is the identity at the ideal values, a product into zero is the plain sum over the inner coordinate), and,
  in the host program, two plain matrix products and a broadcast bias: the same expression entry by entry, so the two
  results are one function of the arguments and no finiteness of the inputs is used.

  The three frames: the two kernel programs' are the generated ones; the host program's is its generated run with the
  result dropped. The idealization rewrote no operation, so nothing is owed for it.
-/
import proofs.«120251_j60103772340328_1_alg».proof.Defs
import proofs.«120251_j60103772340328_1_alg».proof.Proof.Gen.Kernel
import proofs.«120251_j60103772340328_1_alg».proof.Proof.Gen.Kernel.Skeleton
import proofs.«120251_j60103772340328_1_alg».proof.Proof.Gen.Kernel.Launch
import proofs.«120251_j60103772340328_1_alg».proof.Proof.Gen.Kernel.Points
import proofs.«120251_j60103772340328_1_alg».proof.Proof.Gen.Kernel.Frame
import proofs.«120251_j60103772340328_1_alg».proof.Proof.Gen.KernelIdeal
import proofs.«120251_j60103772340328_1_alg».proof.Proof.Gen.KernelIdeal.Skeleton
import proofs.«120251_j60103772340328_1_alg».proof.Proof.Gen.KernelIdeal.Launch
import proofs.«120251_j60103772340328_1_alg».proof.Proof.Gen.KernelIdeal.Points
import proofs.«120251_j60103772340328_1_alg».proof.Proof.Gen.KernelIdeal.Frame
import proofs.«120251_j60103772340328_1_alg».proof.Proof.Gen.ReferenceIdeal
import proofs.«120251_j60103772340328_1_alg».proof.Proof.Gen.ReferenceIdeal.Run
import proofs.«120251_j60103772340328_1_alg».proof.Proof.Gen.Pre_finite_inputs
import proofs.«120251_j60103772340328_1_alg».proof.Proof.KernelValue
import proofs.«120251_j60103772340328_1_alg».proof.Proof.RefValue
import Idealize.ShloMosaic.Adequacy
import Idealize.ShloMosaic.Init

noncomputable section

namespace Cert.Proof

open Idealize.ShloMosaic Idealize.SL.Sem

/-- Run from memories that agree on the arguments, both idealized programs end with the result at the network of the
    arguments: the kernel program by its run read through the two calls, the host program by its run's term read one
    operation at a time. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Whole.result_eq]
  obtain ⟨e0, e1, e2, e3, e4, e5, e6, e7, e8⟩ := hagree c
  rw [e0, e1, e2, e3, e4, e5, e6, e7, e8]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
